-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S1x1024x64 : S_.BroadcastsInDim S1x1024x64 (![] : Fin 0 → Fin S1x1024x64.rank)
  reducesTo_S1x1024x64_S_d0_1_2 : S1x1024x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S4096x64 .f32) (main_arg1 : FVec F S1x1024x64 .f32) (main_arg2 : FVec F S64x64 .f32) (main_arg3 : FVec F S64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S1x1024x64 .f32 := Host.absf main_arg1
  let main_cst_0 : FVec F S_ .f32 := constant S_ .f32 0x7F800000#32
  let main_v5 : FVec F S1x1024x64 .f32 := broadcastInDim S1x1024x64 ![] bcast_S_S1x1024x64 main_cst_0
  let main_v6 : IVec S1x1024x64 1 := cmpf .olt main_v4 main_v5
  let main_c_1 : IVec S_ 1 := constantI S_ 1 1#1
  let main_v7 : IVec S_ 1 := (fun x v => Host.reduce IntOp.andi x v reducesTo_S1x1024x64_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S1024x64 : Shape := ⟨2, ![1024, 64]⟩
abbrev S1x64 : Shape := ⟨2, ![1, 64]⟩
abbrev S2048x64 : Shape := ⟨2, ![2048, 64]⟩
abbrev S2048x1024 : Shape := ⟨2, ![2048, 1024]⟩
abbrev S1024x1 : Shape := ⟨2, ![1024, 1]⟩
abbrev S1024x65 : Shape := ⟨2, ![1024, 65]⟩
abbrev S2048x65 : Shape := ⟨2, ![2048, 65]⟩
abbrev S2048x1 : Shape := ⟨2, ![2048, 1]⟩

abbrev nBuf : Space → Nat
  | .hbm => 7
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S1x1024x64, .f32⟩
  | .hbm, ⟨2, _⟩ => ⟨S64x64, .f32⟩
  | .hbm, ⟨3, _⟩ => ⟨S64, .f32⟩
  | .hbm, ⟨4, _⟩ => ⟨S1024x64, .f32⟩
  | .hbm, ⟨5, _⟩ => ⟨S1x64, .f32⟩
  | .hbm, ⟨6, _⟩ => ⟨S4096x64, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S64x64, .f32⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1x1024x64_S1024x64 : S1x1024x64.ShapeCasts S1024x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  concatenates_S1024x64_S1024x1_S1024x65_d1 : Shape.Concatenates [S1024x64, S1024x1] S1024x65 1
  slices_S2048x65_o0_0_S2048x64 : S2048x65.Slices ![0, 0] S2048x64
  slices_S2048x65_o0_64_S2048x1 : S2048x65.Slices ![0, 64] S2048x1
  broadcasts_S2048x1_S2048x64 : S2048x1.Broadcasts S2048x64
  dot_S2048x64_S64x64_S2048x64_1_1_0_0_n_n_wf : DotDims.WF S2048x64 S64x64 S2048x64 [1] [1] [0] [0] [] []
  dot_S2048x64_S1024x64_S2048x1024_1_1_0_0_n_n_wf : DotDims.WF S2048x64 S1024x64 S2048x1024 [1] [1] [0] [0] [] []
  dot_S2048x1024_S1024x65_S2048x65_1_0_0_1_n_n_wf : DotDims.WF S2048x1024 S1024x65 S2048x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S4096x64.size a
  hwx0_0 : ∀ i : grid0.Coords, EltTy.bits .f32 = 32 ∨ (Rect.block (s := S4096x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S4096x64.size a
  hwx0_4 : ∀ i : grid0.Coords, EltTy.bits .f32 = 32 ∨ (Rect.block (s := S4096x64) S2048x64.size (cc0_transform_4 i) (hinb0_4 i)).WholeWords (EltTy.packing .f32)

variable [Facts₀]

def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf
def dot_S2048x1024_S1024x65_S2048x65_1_0_0_1_n_n : DotDims S2048x1024 S1024x65 S2048x65 where
  lhsContracting := [1]
  rhsContracting := [0]
  lhsNonContracting := [0]
  rhsNonContracting := [1]
  lhsBatch := []
  rhsBatch := []
  wf := dot_S2048x1024_S1024x65_S2048x65_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x64 : Shape := ⟨2, ![4096, 64]⟩
abbrev S1x1024x64 : Shape := ⟨3, ![1, 1024, 64]⟩
abbrev S64x64 : Shape := ⟨2, ![64, 64]⟩
abbrev S64 : Shape := ⟨1, ![64]⟩
abbrev S1x64 : Shape := ⟨2, ![1, 64]⟩
abbrev S1024x64 : Shape := ⟨2, ![1024, 64]⟩
abbrev S64x1024 : Shape := ⟨2, ![64, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1x1024x64, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S4096x64, .f32⟩
  | .hbm, ⟨6, _⟩ => ⟨S1x64, .f32⟩
  | .hbm, ⟨7, _⟩ => ⟨S4096x64, .f32⟩
  | .hbm, ⟨8, _⟩ => ⟨S4096x64, .f32⟩
  | .hbm, ⟨9, _⟩ => ⟨S1024x64, .f32⟩
  | .hbm, ⟨10, _⟩ => ⟨S64x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  shapeCasts_S1x1024x64_S1024x64 : S1x1024x64.ShapeCasts S1024x64
  transposes_S1024x64_S64x1024_1_0 : S1024x64.Transposes [1, 0] S64x1024
  bcast_S_S4096x1024 : S_.BroadcastsInDim S4096x1024 (![] : Fin 0 → Fin S4096x1024.rank)
  reducesTo_S4096x1024_S4096_d1 : S4096x1024.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x1024_0_1 : S4096x1.BroadcastsInDim S4096x1024 (![0, 1] : Fin 2 → Fin S4096x1024.rank)
  dot_S4096x64_S64x64_S4096x64_1_0_0_1_n_n_wf : DotDims.WF S4096x64 S64x64 S4096x64 [1] [0] [0] [1] [] []
  dot_S4096x64_S64x1024_S4096x1024_1_0_0_1_n_n_wf : DotDims.WF S4096x64 S64x1024 S4096x1024 [1] [0] [0] [1] [] []
  dot_S4096x1024_S1024x64_S4096x64_1_0_0_1_n_n_wf : DotDims.WF S4096x1024 S1024x64 S4096x64 [1] [0] [0] [1] [] []

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x1024_S4096x1024_1_0_0_1_n_n : DotDims S4096x64 S64x1024 S4096x1024 where
  lhsContracting := [1]
  rhsContracting := [0]
  lhsNonContracting := [0]
  rhsNonContracting := [1]
  lhsBatch := []
  rhsBatch := []
  wf := dot_S4096x64_S64x1024_S4096x1024_1_0_0_1_n_n_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf

class Facts : Prop extends Facts₀ where

variable [Facts]
-- ==== Proof.ReadAlgebra.lean ====
/-
  The mathematics of the memory read, with no program in sight.

  One query row `q` (J entries), projection weights `W` (K × J), a bias `b` (K entries) and a memory bank `M`
  (N rows of K entries). The attention score of memory row `n` is
      s n = (∑ k, ((∑ j, q j · W k j) + b k) · M n k) / 8.
  The kernel reaches it with the factor 1/8 multiplied into the weights and the bias before the two products
  (`kerScore`); the reference divides the finished product by 8 (`refScore`). On real numbers the two agree:
  a factor moves across a finite sum. (On extended reals it need not: that is where finiteness of the inputs is used.)

  The kernel's output is  (∑ n, exp (s n) · M n d) / (∑ n, exp (s n) · 1)  — an unnormalised weighted sum of the
  memory rows over the sum of the weights. The reference's is  ∑ n, (exp (s n - μ) / (0 + ∑ n', exp (s n' - μ))) · M n d
  for a shift μ (the row's largest score). For every REAL μ these are one number: exp (s - μ) = exp s / exp μ, the
  positive factor 1 / exp μ leaves both the numerator and the denominator, and the common normaliser leaves the sum.
-/
import Idealize.ShloMosaic.PureOps.Ideal
import Idealize.ShloMosaic.PureOps.Ideal.Laws

noncomputable section

open scoped BigOperators

namespace Cert.MemoryRead

open Idealize.ShloMosaic

/-! ## Finite sums and maxima of real numbers, inside the extended reals -/

/-- A finite sum of real numbers, each read as an extended real, is the real sum read as an extended real. -/
theorem coe_sum {ι : Type*} (s : Finset ι) (f : ι → ℝ) :
    ∑ k ∈ s, ((f k : ℝ) : EReal) = ((∑ k ∈ s, f k : ℝ) : EReal) := by
  classical
  refine Finset.induction_on s ?_ ?_
  · simp
  · intro a s ha ih
    rw [Finset.sum_insert ha, Finset.sum_insert ha, ih, EReal.coe_add]

/-- The running maximum from -∞ over a NONEMPTY finite family of real numbers is a real number. -/
theorem fold_max_real {ι : Type*} [DecidableEq ι] (s : Finset ι) (hs : s.Nonempty) (f : ι → ℝ) :
    ∃ μ : ℝ, s.fold max (⊥ : EReal) (fun n => ((f n : ℝ) : EReal)) = (μ : EReal) := by
  revert hs
  refine Finset.induction_on s ?_ ?_
  · intro h; exact absurd h Finset.not_nonempty_empty
  · intro a s ha ih _
    rw [Finset.fold_insert ha]
    rcases s.eq_empty_or_nonempty with rfl | hne
    · exact ⟨f a, by rw [Finset.fold_empty]; exact max_bot_right _⟩
    · obtain ⟨μ, hμ⟩ := ih hne
      exact ⟨max (f a) μ, by rw [hμ]; exact (EReal.coe_strictMono.monotone.map_max).symm⟩

/-! ## The two programs' formulas for one output row, over extended reals -/

section Formulas
variable {J K N : Type} [Fintype J] [Fintype K] [Fintype N]

/-- The kernel's score of memory row `n`: the scale `c` is multiplied into the weights and into the bias first. -/
def kerScore (c : EReal) (q : J → EReal) (W : K → J → EReal) (b : K → EReal) (M : N → K → EReal) (n : N) : EReal :=
  ∑ k, ((∑ j, q j * (W k j * c)) + b k * c) * M n k

/-- The kernel's output entry `d`: the memory rows weighted by exp of their scores, over the sum of those weights
    (which the kernel gets as one more column of the same product, against a column of ones). -/
def kerOut (c one : EReal) (q : J → EReal) (W : K → J → EReal) (b : K → EReal) (M : N → K → EReal) (d : K) : EReal :=
  Ideal.div (∑ n, Ideal.exp (kerScore c q W b M n) * M n d) (∑ n, Ideal.exp (kerScore c q W b M n) * one)

/-- The reference's score of memory row `n`: the finished product divided by `eight`. -/
def refScore (eight : EReal) (q : J → EReal) (W : K → J → EReal) (b : K → EReal) (M : N → K → EReal) (n : N) : EReal :=
  Ideal.div (∑ k, ((∑ j, q j * W k j) + b k) * M n k) eight

/-- The reference's output entry `d`: the softmax weights, shifted by `μ` before the exponential and normalised by
    their sum (from `zero`), against the memory rows. -/
def refOut (eight zero μ : EReal) (q : J → EReal) (W : K → J → EReal) (b : K → EReal) (M : N → K → EReal) (d : K) : EReal :=
  ∑ n, Ideal.div (Ideal.exp (refScore eight q W b M n - μ)) (zero + ∑ n', Ideal.exp (refScore eight q W b M n' - μ)) * M n d

/-- The common score, on real inputs. -/
def score (q : J → ℝ) (W : K → J → ℝ) (b : K → ℝ) (M : N → K → ℝ) (n : N) : ℝ :=
  (∑ k, ((∑ j, q j * W k j) + b k) * M n k) / 8

variable (q : J → ℝ) (W : K → J → ℝ) (b : K → ℝ) (M : N → K → ℝ)

/-- On real inputs the kernel's score is the common score: 1/8 leaves the inner sum and then the outer one. -/
theorem kerScore_real (n : N) :
    kerScore (((1 / 8 : ℝ) : ℝ) : EReal) (fun j => (q j : EReal)) (fun k j => (W k j : EReal)) (fun k => (b k : EReal))
      (fun n k => (M n k : EReal)) n = (score q W b M n : EReal) := by
  unfold kerScore score
  simp only [← EReal.coe_mul, coe_sum, ← EReal.coe_add]
  rw [EReal.coe_eq_coe_iff, Finset.sum_div]
  refine Finset.sum_congr rfl fun k _ => ?_
  have h : ∑ j, q j * (W k j * (1 / 8)) = (∑ j, q j * W k j) * (1 / 8) := by
    rw [Finset.sum_mul]; exact Finset.sum_congr rfl fun j _ => by ring
  rw [h]; ring

/-- On real inputs the reference's score is the common score: dividing by the real 8 is multiplying by 1/8. -/
theorem refScore_real (n : N) :
    refScore ((8 : ℝ) : EReal) (fun j => (q j : EReal)) (fun k j => (W k j : EReal)) (fun k => (b k : EReal))
      (fun n k => (M n k : EReal)) n = (score q W b M n : EReal) := by
  unfold refScore score
  simp only [← EReal.coe_mul, coe_sum, ← EReal.coe_add]
  rw [Ideal.div_coe (by norm_num : (8 : ℝ) ≠ 0), ← EReal.coe_mul, EReal.coe_eq_coe_iff]
  ring

/-- A sum of exponentials over a nonempty family is positive. -/
theorem sum_exp_pos [Nonempty N] (s : N → ℝ) : 0 < ∑ n, Real.exp (s n) :=
  Finset.sum_pos (fun n _ => Real.exp_pos _) Finset.univ_nonempty

/-- The softmax identity on real numbers: shifting every score by `μ` changes nothing once the weights are
    normalised, and normalising after the weighted sum is normalising before it. -/
theorem softmax_shift [Nonempty N] (s v : N → ℝ) (μ : ℝ) :
    (∑ n, Real.exp (s n) * v n) * (1 / ∑ n, Real.exp (s n))
      = ∑ n, Real.exp (s n - μ) * (1 / ∑ n', Real.exp (s n' - μ)) * v n := by
  have hS : (∑ n, Real.exp (s n)) ≠ 0 := (sum_exp_pos s).ne'
  have hE : Real.exp μ ≠ 0 := (Real.exp_pos μ).ne'
  have hZ : ∑ n', Real.exp (s n' - μ) = (∑ n, Real.exp (s n)) / Real.exp μ := by
    rw [Finset.sum_div]; exact Finset.sum_congr rfl fun n _ => Real.exp_sub _ _
  rw [hZ, Finset.sum_mul]
  refine Finset.sum_congr rfl fun n _ => ?_
  rw [Real.exp_sub]
  field_simp

/-- The kernel's output on real inputs, as a real number. -/
theorem kerOut_real [Nonempty N] (d : K) :
    kerOut (((1 / 8 : ℝ) : ℝ) : EReal) 1 (fun j => (q j : EReal)) (fun k j => (W k j : EReal)) (fun k => (b k : EReal))
      (fun n k => (M n k : EReal)) d
      = (((∑ n, Real.exp (score q W b M n) * M n d) * (1 / ∑ n, Real.exp (score q W b M n)) : ℝ) : EReal) := by
  unfold kerOut
  simp only [kerScore_real, Ideal.exp_coe, mul_one, ← EReal.coe_mul, coe_sum]
  rw [Ideal.div_coe (sum_exp_pos _).ne', ← EReal.coe_mul]

/-- The reference's output on real inputs and a real shift, as a real number. -/
theorem refOut_real [Nonempty N] (μ : ℝ) (d : K) :
    refOut ((8 : ℝ) : EReal) 0 (μ : EReal) (fun j => (q j : EReal)) (fun k j => (W k j : EReal)) (fun k => (b k : EReal))
      (fun n k => (M n k : EReal)) d
      = ((∑ n, Real.exp (score q W b M n - μ) * (1 / ∑ n', Real.exp (score q W b M n' - μ)) * M n d : ℝ) : EReal) := by
  unfold refOut
  simp only [refScore_real, ← EReal.coe_sub, Ideal.exp_coe, coe_sum, zero_add]
  simp only [Ideal.div_coe (sum_exp_pos fun n => score q W b M n - μ).ne', ← EReal.coe_mul, coe_sum]

/-- THE LAW: on real inputs, for every real shift, the kernel's output entry is the reference's. The constants enter
    as the extended reals their words denote. -/
theorem kerOut_eq_refOut [Nonempty N] (c one eight zero : EReal) (hc : c = (((1 / 8 : ℝ) : ℝ) : EReal)) (h1 : one = 1)
    (h8 : eight = ((8 : ℝ) : EReal)) (h0 : zero = 0) (μ : ℝ) (d : K) :
    kerOut c one (fun j => (q j : EReal)) (fun k j => (W k j : EReal)) (fun k => (b k : EReal)) (fun n k => (M n k : EReal)) d
      = refOut eight zero (μ : EReal) (fun j => (q j : EReal)) (fun k j => (W k j : EReal)) (fun k => (b k : EReal))
          (fun n k => (M n k : EReal)) d := by
  subst hc h1 h8 h0
  rw [kerOut_real, refOut_real, softmax_shift _ _ μ]

end Formulas

end Cert.MemoryRead

end
-- ==== Proof.KernelRow.lean ====
/-
  What the kernel's body stores, read at one entry. For a block of 2048 query rows `x0`, the memory bank `x1`
  (1024 rows of 64), the weights `x2` (64 × 64) and the bias `x3` (one row of 64), entry (r, d) of the stored block is

      (∑ n, exp (s r n) · x1 n d) / (∑ n, exp (s r n) · 1),   s r n = ∑ k, ((∑ j, x0 r j · (x2 k j · c)) + x3 0 k · c) · x1 n k,

  with `c` the scale 0.125 — the formula `MemoryRead.kerOut` of row r of the block. The three matrix products are
  read as sums over their one contracted axis; the 65-column product's last column meets the column of ones that
  the body appended to the memory bank, so it is the denominator; the two slices pick the first 64 columns and that last one.
  Nothing here depends on the values being finite.
-/
import proofs.«134530_g28106265985550_cont_9to1_1613_17_alg».proof.Proof.Gen.KernelIdeal.Skeleton
import proofs.«134530_g28106265985550_cont_9to1_1613_17_alg».proof.Proof.ReadAlgebra
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Row

open Cert.KernelIdeal Cert.KernelIdeal.Gen Idealize.ShloMosaic Idealize.ShloMosaic.ValueIdx Cert.MemoryRead

/-! ## The three matrix products at an entry: sums over the contracted axis -/

theorem lhs_proj_0 (i : S2048x64.Idx) (q : dot_S2048x64_S64x64_S2048x64_1_1_0_0_n_n.contr.Idx) :
    (dot_S2048x64_S64x64_S2048x64_1_1_0_0_n_n.lhsIdx i q 0).val = (i 0).val := by
  unfold DotDims.lhsIdx
  rw [dif_neg (show ¬(0 : Fin S2048x64.rank) ∈ dot_S2048x64_S64x64_S2048x64_1_1_0_0_n_n.lhsBatch by decide), dif_pos (show (0 : Fin S2048x64.rank) ∈ dot_S2048x64_S64x64_S2048x64_1_1_0_0_n_n.lhsNonContracting by decide)]
  rfl
theorem lhs_proj_1 (i : S2048x64.Idx) (q : dot_S2048x64_S64x64_S2048x64_1_1_0_0_n_n.contr.Idx) :
    (dot_S2048x64_S64x64_S2048x64_1_1_0_0_n_n.lhsIdx i q 1).val = (q ⟨0, by decide⟩).val :=
  dot_S2048x64_S64x64_S2048x64_1_1_0_0_n_n.lhsIdx_val_of_single rfl i q
theorem rhs_proj_0 (i : S2048x64.Idx) (q : dot_S2048x64_S64x64_S2048x64_1_1_0_0_n_n.contr.Idx) :
    (dot_S2048x64_S64x64_S2048x64_1_1_0_0_n_n.rhsIdx i q 0).val = (i 1).val := by
  unfold DotDims.rhsIdx
  rw [dif_neg (show ¬(0 : Fin S64x64.rank) ∈ dot_S2048x64_S64x64_S2048x64_1_1_0_0_n_n.rhsBatch by decide), dif_pos (show (0 : Fin S64x64.rank) ∈ dot_S2048x64_S64x64_S2048x64_1_1_0_0_n_n.rhsNonContracting by decide)]
  rfl
theorem rhs_proj_1 (i : S2048x64.Idx) (q : dot_S2048x64_S64x64_S2048x64_1_1_0_0_n_n.contr.Idx) :
    (dot_S2048x64_S64x64_S2048x64_1_1_0_0_n_n.rhsIdx i q 1).val = (q ⟨0, by decide⟩).val :=
  dot_S2048x64_S64x64_S2048x64_1_1_0_0_n_n.rhsIdx_val_of_single rfl i q

/-- Rows of the query block against rows of the weights (both contract their second axis): entry (r, k) is the sum over j of x r j · w k j. -/
theorem proj_apply (x : FVec Ideal S2048x64 .f32) (w : FVec Ideal S64x64 .f32) (r : Fin 2048) (c : Fin 64) :
    matmul dot_S2048x64_S64x64_S2048x64_1_1_0_0_n_n none x w (constant (F := Ideal) S2048x64 .f32 0x00000000#32) (ix2 r c)
      = ∑ k : Fin 64, x (ix2 r k) * w (ix2 c k) := by
  simp only [matmul]
  rw [Ideal.matmul_constant_zero_apply, ← Equiv.sum_comp (contrEquiv1 dot_S2048x64_S64x64_S2048x64_1_1_0_0_n_n 64 rfl rfl).symm]
  refine Finset.sum_congr rfl fun k _ => ?_
  have hk := contrEquiv1_symm_val dot_S2048x64_S64x64_S2048x64_1_1_0_0_n_n 64 rfl rfl k
  have el : dot_S2048x64_S64x64_S2048x64_1_1_0_0_n_n.lhsIdx (ix2 r c) ((contrEquiv1 dot_S2048x64_S64x64_S2048x64_1_1_0_0_n_n 64 rfl rfl).symm k) = ix2 r k := funext fun a => Fin.ext (by
    match a with
    | ⟨0, _⟩ => exact lhs_proj_0 _ _
    | ⟨1, _⟩ => exact (lhs_proj_1 _ _).trans hk)
  have er : dot_S2048x64_S64x64_S2048x64_1_1_0_0_n_n.rhsIdx (ix2 r c) ((contrEquiv1 dot_S2048x64_S64x64_S2048x64_1_1_0_0_n_n 64 rfl rfl).symm k) = ix2 c k := funext fun a => Fin.ext (by
    match a with
    | ⟨0, _⟩ => exact rhs_proj_0 _ _
    | ⟨1, _⟩ => exact (rhs_proj_1 _ _).trans hk)
  rw [el, er]

theorem lhs_score_0 (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl
theorem lhs_score_1 (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q
theorem rhs_score_0 (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl
theorem rhs_score_1 (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- Projected rows against memory rows (both contract their second axis): entry (r, n) is the sum over k of x r k · w n k. -/
theorem score_apply (x : FVec Ideal S2048x64 .f32) (w : FVec Ideal S1024x64 .f32) (r : Fin 2048) (c : Fin 1024) :
    matmul dot_S2048x64_S1024x64_S2048x1024_1_1_0_0_n_n none x w (constant (F := Ideal) S2048x1024 .f32 0x00000000#32) (ix2 r c)
      = ∑ k : Fin 64, x (ix2 r k) * w (ix2 c k) := by
  simp only [matmul]
  rw [Ideal.matmul_constant_zero_apply, ← Equiv.sum_comp (contrEquiv1 dot_S2048x64_S1024x64_S2048x1024_1_1_0_0_n_n 64 rfl rfl).symm]
  refine Finset.sum_congr rfl fun k _ => ?_
  have hk := contrEquiv1_symm_val dot_S2048x64_S1024x64_S2048x1024_1_1_0_0_n_n 64 rfl rfl k
  have el : dot_S2048x64_S1024x64_S2048x1024_1_1_0_0_n_n.lhsIdx (ix2 r c) ((contrEquiv1 dot_S2048x64_S1024x64_S2048x1024_1_1_0_0_n_n 64 rfl rfl).symm k) = ix2 r k := funext fun a => Fin.ext (by
    match a with
    | ⟨0, _⟩ => exact lhs_score_0 _ _
    | ⟨1, _⟩ => exact (lhs_score_1 _ _).trans hk)
  have er : dot_S2048x64_S1024x64_S2048x1024_1_1_0_0_n_n.rhsIdx (ix2 r c) ((contrEquiv1 dot_S2048x64_S1024x64_S2048x1024_1_1_0_0_n_n 64 rfl rfl).symm k) = ix2 c k := funext fun a => Fin.ext (by
    match a with
    | ⟨0, _⟩ => exact rhs_score_0 _ _
    | ⟨1, _⟩ => exact (rhs_score_1 _ _).trans hk)
  rw [el, er]

theorem lhs_mix_0 (i : S2048x65.Idx) (q : dot_S2048x1024_S1024x65_S2048x65_1_0_0_1_n_n.contr.Idx) :
    (dot_S2048x1024_S1024x65_S2048x65_1_0_0_1_n_n.lhsIdx i q 0).val = (i 0).val := by
  unfold DotDims.lhsIdx
  rw [dif_neg (show ¬(0 : Fin S2048x1024.rank) ∈ dot_S2048x1024_S1024x65_S2048x65_1_0_0_1_n_n.lhsBatch by decide), dif_pos (show (0 : Fin S2048x1024.rank) ∈ dot_S2048x1024_S1024x65_S2048x65_1_0_0_1_n_n.lhsNonContracting by decide)]
  rfl
theorem lhs_mix_1 (i : S2048x65.Idx) (q : dot_S2048x1024_S1024x65_S2048x65_1_0_0_1_n_n.contr.Idx) :
    (dot_S2048x1024_S1024x65_S2048x65_1_0_0_1_n_n.lhsIdx i q 1).val = (q ⟨0, by decide⟩).val :=
  dot_S2048x1024_S1024x65_S2048x65_1_0_0_1_n_n.lhsIdx_val_of_single rfl i q
theorem rhs_mix_0 (i : S2048x65.Idx) (q : dot_S2048x1024_S1024x65_S2048x65_1_0_0_1_n_n.contr.Idx) :
    (dot_S2048x1024_S1024x65_S2048x65_1_0_0_1_n_n.rhsIdx i q 0).val = (q ⟨0, by decide⟩).val :=
  dot_S2048x1024_S1024x65_S2048x65_1_0_0_1_n_n.rhsIdx_val_of_single rfl i q
theorem rhs_mix_1 (i : S2048x65.Idx) (q : dot_S2048x1024_S1024x65_S2048x65_1_0_0_1_n_n.contr.Idx) :
    (dot_S2048x1024_S1024x65_S2048x65_1_0_0_1_n_n.rhsIdx i q 1).val = (i 1).val := by
  unfold DotDims.rhsIdx
  rw [dif_neg (show ¬(1 : Fin S1024x65.rank) ∈ dot_S2048x1024_S1024x65_S2048x65_1_0_0_1_n_n.rhsBatch by decide), dif_pos (show (1 : Fin S1024x65.rank) ∈ dot_S2048x1024_S1024x65_S2048x65_1_0_0_1_n_n.rhsNonContracting by decide)]
  rfl

/-- Weights against the augmented memory (an ordinary product): entry (r, e) is the sum over n of x r n · w n e. -/
theorem mix_apply (x : FVec Ideal S2048x1024 .f32) (w : FVec Ideal S1024x65 .f32) (r : Fin 2048) (c : Fin 65) :
    matmul dot_S2048x1024_S1024x65_S2048x65_1_0_0_1_n_n none x w (constant (F := Ideal) S2048x65 .f32 0x00000000#32) (ix2 r c)
      = ∑ k : Fin 1024, x (ix2 r k) * w (ix2 k c) := by
  simp only [matmul]
  rw [Ideal.matmul_constant_zero_apply, ← Equiv.sum_comp (contrEquiv1 dot_S2048x1024_S1024x65_S2048x65_1_0_0_1_n_n 1024 rfl rfl).symm]
  refine Finset.sum_congr rfl fun k _ => ?_
  have hk := contrEquiv1_symm_val dot_S2048x1024_S1024x65_S2048x65_1_0_0_1_n_n 1024 rfl rfl k
  have el : dot_S2048x1024_S1024x65_S2048x65_1_0_0_1_n_n.lhsIdx (ix2 r c) ((contrEquiv1 dot_S2048x1024_S1024x65_S2048x65_1_0_0_1_n_n 1024 rfl rfl).symm k) = ix2 r k := funext fun a => Fin.ext (by
    match a with
    | ⟨0, _⟩ => exact lhs_mix_0 _ _
    | ⟨1, _⟩ => exact (lhs_mix_1 _ _).trans hk)
  have er : dot_S2048x1024_S1024x65_S2048x65_1_0_0_1_n_n.rhsIdx (ix2 r c) ((contrEquiv1 dot_S2048x1024_S1024x65_S2048x65_1_0_0_1_n_n 1024 rfl rfl).symm k) = ix2 k c := funext fun a => Fin.ext (by
    match a with
    | ⟨0, _⟩ => exact (rhs_mix_0 _ _).trans hk
    | ⟨1, _⟩ => exact rhs_mix_1 _ _)
  rw [el, er]

/-! ## The layout operations of the body at an entry -/

/-- The memory bank with a column of `one`s appended: a column below 64 reads the bank. -/
theorem aug_left (mem : FVec Ideal S1024x64 .f32) (one : Ideal .f32) (h : Shape.Concatenates [S1024x64, S1024x1] S1024x65 1)
    (n : Fin 1024) (d : Fin 64) :
    concatenate S1024x65 1 [⟨S1024x64, mem⟩, ⟨S1024x1, broadcast S1024x1 one⟩] h (ix2 n (⟨d.val, by have := d.isLt; omega⟩ : Fin 65))
      = mem (ix2 n d) :=
  concatenate_pair_apply_left (1 : Fin S1024x65.rank) mem (broadcast S1024x1 one) h _ rfl (ix2 n d) (fun b => by
    match b with
    | ⟨0, _⟩ => rfl
    | ⟨1, _⟩ => rfl)

/-- … and column 64 reads the appended `one`. -/
theorem aug_right (mem : FVec Ideal S1024x64 .f32) (one : Ideal .f32) (h : Shape.Concatenates [S1024x64, S1024x1] S1024x65 1)
    (n : Fin 1024) :
    concatenate S1024x65 1 [⟨S1024x64, mem⟩, ⟨S1024x1, broadcast S1024x1 one⟩] h (ix2 n (⟨64, by decide⟩ : Fin 65)) = one :=
  (concatenate_pair_apply_right (1 : Fin S1024x65.rank) mem (broadcast S1024x1 one) h _ rfl rfl (ix2 n (0 : Fin 1)) (fun b hb => by
    match b with
    | ⟨0, _⟩ => rfl
    | ⟨1, _⟩ => exact absurd rfl hb) rfl).trans rfl

/-- The closing quotient: the first 64 columns of the 65-column product, each over the row's last column. -/
theorem quotient_apply (acc : FVec Ideal S2048x65 .f32) (h1 : S2048x65.Slices ![0, 0] S2048x64) (h2 : S2048x65.Slices ![0, 64] S2048x1)
    (h3 : S2048x1.Broadcasts S2048x64) (r : Fin 2048) (d : Fin 64) :
    divf (extractStridedSlice S2048x64 ![0, 0] acc h1) (broadcastTo S2048x64 (extractStridedSlice S2048x1 ![0, 64] acc h2) h3) (ix2 r d)
      = Ideal.div (acc (ix2 r (⟨d.val, by have := d.isLt; omega⟩ : Fin 65))) (acc (ix2 r (⟨64, by decide⟩ : Fin 65))) := by
  rw [divf_apply, slice2_axis1_apply 0 acc h1 r d ⟨d.val, by have := d.isLt; omega⟩ (Nat.zero_add _).symm]
  congr 1
  refine (broadcastTo_apply _ h3 (ix2 r d) (ix2 r (0 : Fin 1)) fun a => ?_).trans
    (slice2_axis1_apply 64 acc h2 r (0 : Fin 1) ⟨64, by decide⟩ rfl)
  match a with
  | ⟨0, _⟩ => rfl
  | ⟨1, _⟩ => rfl

/-- The scaled projection with its scaled bias: entry (r, k). -/
theorem proj_bias_apply (x0 : FVec Ideal S2048x64 .f32) (x2 : FVec Ideal S64x64 .f32) (x3 : FVec Ideal S1x64 .f32) (c : Ideal .f32)
    (h2 : S1x64.Broadcasts S2048x64) (r : Fin 2048) (k : Fin 64) :
    addf (matmul dot_S2048x64_S64x64_S2048x64_1_1_0_0_n_n none x0 (mulf x2 (broadcast S64x64 c)) (constant (F := Ideal) S2048x64 .f32 0x00000000#32))
        (broadcastTo S2048x64 (mulf x3 (broadcast S1x64 c)) h2) (ix2 r k)
      = (∑ j : Fin 64, x0 (ix2 r j) * (x2 (ix2 k j) * c)) + x3 (ix2 (0 : Fin 1) k) * c := by
  rw [addf_apply, proj_apply, broadcastTo_1b_ab_apply]
  rfl

/-! ## The stored block at an entry -/

/-- Entry (r, d) of what the body stores is the kernel's formula of row r. -/
theorem payload_apply (x0 : Vec Ideal S2048x64 .f32) (x1 : Vec Ideal S1024x64 .f32) (x2 : Vec Ideal S64x64 .f32) (x3 : Vec Ideal S1x64 .f32)
    (r : Fin 2048) (d : Fin 64) :
    k0_pay1 (F := Ideal) x0 x1 x2 x3 (ix2 r d)
      = kerOut (Ideal.ofBits .f32 0x3E000000#32) (Ideal.ofBits .f32 0x3F800000#32)
          (fun j : Fin 64 => x0 (ix2 r j)) (fun k j : Fin 64 => x2 (ix2 k j)) (fun k : Fin 64 => x3 (ix2 (0 : Fin 1) k))
          (fun (n : Fin 1024) (k : Fin 64) => x1 (ix2 n k)) d := by
  unfold k0_pay1
  rw [quotient_apply, mix_apply, mix_apply]
  simp only [aug_left, aug_right, shapeCast_self]
  unfold kerOut kerScore
  congr 1
  · refine Finset.sum_congr rfl fun n _ => ?_
    congr 1
    show Ideal.exp _ = Ideal.exp _
    congr 1
    rw [score_apply]
    refine Finset.sum_congr rfl fun k _ => ?_
    rw [proj_bias_apply]
    rfl
  · refine Finset.sum_congr rfl fun n _ => ?_
    congr 1
    show Ideal.exp _ = Ideal.exp _
    congr 1
    rw [score_apply]
    refine Finset.sum_congr rfl fun k _ => ?_
    rw [proj_bias_apply]
    rfl

end Cert.KernelIdeal.Row

end
-- ==== Proof.KernelWhole.lean ====
/-
  The kernel's output ARRAY after the run, as one function of the argument arrays.

  The grid has two points; point t handles query rows 2048·t … 2048·t + 2047 and every column, and sees the whole memory
  bank, the whole weight matrix and the whole bias row. So entry (p, d) of the output is the kernel's formula
  (`MemoryRead.kerOut`) of query row p: `rowwise`. The two blocks tile the 4096 rows (row p lies in block p / 2048), so
  the array after the run is `rowwise` everywhere. The memory bank and the bias reach the kernel through two reshapes
  on the host (dropping the bank's leading unit axis, giving the bias one); they are read back here as those reshapes
  of the arguments.
-/
import proofs.«134530_g28106265985550_cont_9to1_1613_17_alg».proof.Proof.Gen.KernelIdeal.Value
import proofs.«134530_g28106265985550_cont_9to1_1613_17_alg».proof.Proof.KernelRow
import Idealize.ShloMosaic.Lib.StableHlo.Run

set_option maxRecDepth 16384

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.MemoryRead
open Idealize.ShloMosaic.Pipeline (Dat)

/-- The output as one function of the four arrays the kernel's windows read: entry (p, d) is the kernel's formula of
    query row p. -/
def rowwise (a0 : S4096x64.Idx → EReal) (a1 : S1024x64.Idx → EReal) (a2 : S64x64.Idx → EReal) (a3 : S1x64.Idx → EReal) :
    S4096x64.Idx → EReal := fun i =>
  kerOut (Ideal.ofBits .f32 0x3E000000#32) (Ideal.ofBits .f32 0x3F800000#32)
    (fun j : Fin 64 => a0 (ix2 (⟨(i 0).val, idx2_lt0 i⟩ : Fin 4096) j)) (fun k j : Fin 64 => a2 (ix2 k j))
    (fun k : Fin 64 => a3 (ix2 (0 : Fin 1) k)) (fun (n : Fin 1024) (k : Fin 64) => a1 (ix2 n k)) (⟨(i 1).val, idx2_lt1 i⟩ : Fin 64)

theorem rowwise_ix2 (a0 : S4096x64.Idx → EReal) (a1 : S1024x64.Idx → EReal) (a2 : S64x64.Idx → EReal) (a3 : S1x64.Idx → EReal)
    (p : Fin 4096) (d : Fin 64) :
    rowwise a0 a1 a2 a3 (ix2 p d)
      = kerOut (Ideal.ofBits .f32 0x3E000000#32) (Ideal.ofBits .f32 0x3F800000#32)
          (fun j : Fin 64 => a0 (ix2 p j)) (fun k j : Fin 64 => a2 (ix2 k j))
          (fun k : Fin 64 => a3 (ix2 (0 : Fin 1) k)) (fun (n : Fin 1024) (k : Fin 64) => a1 (ix2 n k)) d := rfl

/-- One entry of one block: if the block of query rows `b0` holds rows o, o + 1, … of the array `a0`, and the other
    three blocks are their whole arrays, then what the body stores at (r, d) is `rowwise` at (o + r, d). -/
theorem block_entry (a0 : S4096x64.Idx → EReal) (a1 : S1024x64.Idx → EReal) (a2 : S64x64.Idx → EReal) (a3 : S1x64.Idx → EReal)
    (b0 : Vec Ideal S2048x64 .f32) (b1 : Vec Ideal S1024x64 .f32) (b2 : Vec Ideal S64x64 .f32) (b3 : Vec Ideal S1x64 .f32)
    (o : Nat) (h0 : ∀ (r : Fin 2048) (j : Fin 64) (p : Fin 4096), p.val = o + r.val → b0 (ix2 r j) = a0 (ix2 p j))
    (h1 : b1 = a1) (h2 : b2 = a2) (h3 : b3 = a3)
    (y : S2048x64.Idx) (i : S4096x64.Idx) (hi0 : (i 0).val = o + (y 0).val) (hi1 : (i 1).val = (y 1).val) :
    k0_pay1 (F := Ideal) b0 b1 b2 b3 y = rowwise a0 a1 a2 a3 i := by
  obtain ⟨r, d, rfl⟩ : ∃ (r : Fin 2048) (d : Fin 64), y = ix2 r d := ⟨y 0, y 1, eq_ix2 y⟩
  obtain ⟨p, e, rfl⟩ : ∃ (p : Fin 4096) (e : Fin 64), i = ix2 p e := ⟨i 0, i 1, eq_ix2 i⟩
  obtain rfl : e = d := Fin.ext hi1
  rw [Row.payload_apply, rowwise_ix2]
  subst h1 h2 h3
  have hq : (fun j : Fin 64 => b0 (ix2 r j)) = fun j : Fin 64 => a0 (ix2 p j) := funext fun j => h0 r j p hi0
  rw [hq]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the two points: the query window moves down the rows with the output's; every other
    coordinate of every window's block index is 0. -/
theorem idx_facts : ∀ t : Fin cfg0.N, win0_0.index t (0 : Fin 2) = win0_4.index t (0 : Fin 2)
    ∧ win0_0.index t (1 : Fin 2) = 0 ∧ win0_4.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each half of the rows is some point's block. -/
theorem idx_onto : ∀ q0 : Fin 2, ∃ t : Fin cfg0.N, win0_4.index t = ![q0.val, 0] :=
  (by decide +kernel : ∀ q0 : Fin 2, ∃ t : Fin grid0.N, win0_4.index t = ![q0.val, 0])

/-- WHAT POINT t WRITES BACK is block t of `rowwise` of the arrays as the region finds them. -/
theorem flushed_eq (c : Dev nD) (t : Fin cfg0.N) :
    (dats m 0 c).flushed 4 t = ((cfg0.win 4).blk t).view.read (Elt Ideal)
      (rowwise (V m c main_arg0) (V m c main_call0_v0) (V m c main_arg2) (V m c main_call0_v1)) := by
  rw [Value.flushed4]
  unfold out0_4
  rw [View.canon_unit_zero hz]
  simp only [View.ld_unit_zero (S := S2048x64) hz, View.ld_unit_zero (S := S1024x64) hz, View.ld_unit_zero (S := S64x64) hz,
    View.ld_unit_zero (S := S1x64) hz]
  obtain ⟨e00, e01, e41, e10, e11, e20, e21, e30, e31⟩ := idx_facts t
  funext y
  show k0_pay1 (F := Ideal) (iblk m c 0 t) (iblk m c 1 t) (iblk m c 2 t) (iblk m c 3 t) y
    = rowwise (V m c main_arg0) (V m c main_call0_v0) (V m c main_arg2) (V m c main_call0_v1) (((cfg0.win 4).blk t).view.emb y)
  refine block_entry (V m c main_arg0) (V m c main_call0_v0) (V m c main_arg2) (V m c main_call0_v1)
    (iblk m c 0 t) (iblk m c 1 t) (iblk m c 2 t) (iblk m c 3 t) (win0_4.index t (0 : Fin 2) * 2048) ?_ ?_ ?_ ?_ y _ ?_ ?_
  · intro r j p hp
    show V m c main_arg0 (((cfg0.win 0).blk t).view.emb (ix2 r j)) = V m c main_arg0 (ix2 p j)
    congr 1
    funext a; apply Fin.ext
    match a with
    | ⟨0, _⟩ => show win0_0.index t (0 : Fin 2) * 2048 + 1 * r.val = p.val; omega
    | ⟨1, _⟩ => show win0_0.index t (1 : Fin 2) * 64 + 1 * j.val = j.val; omega
  · funext z
    show V m c main_call0_v0 (((cfg0.win 1).blk t).view.emb z) = V m c main_call0_v0 z
    congr 1
    funext a; apply Fin.ext
    match a with
    | ⟨0, _⟩ => show win0_1.index t (0 : Fin 2) * 1024 + 1 * (z 0).val = (z 0).val; omega
    | ⟨1, _⟩ => show win0_1.index t (1 : Fin 2) * 64 + 1 * (z 1).val = (z 1).val; omega
  · funext z
    show V m c main_arg2 (((cfg0.win 2).blk t).view.emb z) = V m c main_arg2 z
    congr 1
    funext a; apply Fin.ext
    match a with
    | ⟨0, _⟩ => show win0_2.index t (0 : Fin 2) * 64 + 1 * (z 0).val = (z 0).val; omega
    | ⟨1, _⟩ => show win0_2.index t (1 : Fin 2) * 64 + 1 * (z 1).val = (z 1).val; omega
  · funext z
    show V m c main_call0_v1 (((cfg0.win 3).blk t).view.emb z) = V m c main_call0_v1 z
    congr 1
    funext a; apply Fin.ext
    match a with
    | ⟨0, _⟩ => show win0_3.index t (0 : Fin 2) * 1 + 1 * (z 0).val = (z 0).val; omega
    | ⟨1, _⟩ => show win0_3.index t (1 : Fin 2) * 64 + 1 * (z 1).val = (z 1).val; omega
  · show win0_4.index t (0 : Fin 2) * 2048 + 1 * (y 0).val = win0_4.index t (0 : Fin 2) * 2048 + (y 0).val; omega
  · show win0_4.index t (1 : Fin 2) * 64 + 1 * (y 1).val = (y 1).val; omega

/-- An index of the array is in point t's block iff each coordinate is in the block's range on its axis. -/
theorem mem_blk (t : Fin cfg0.N) (i : S4096x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v0).slice (win0_4.rect t)).set ↔ _
  rw [View.set_slice_whole, Rect.mem_set_unit]
  exact Iff.rfl

/-- Every entry of the output array lies in a block some point writes back: row p in block p / 2048. -/
theorem cover (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  obtain ⟨t, ht⟩ := idx_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-- The memory bank as the region finds it: the host's reshape of the argument (its leading unit axis dropped). -/
theorem V_bank (c : Dev nD) : (V m c main_call0_v0 : S1024x64.Idx → EReal)
    = shapeCast S1024x64 (m ((c : Thread nD τ).loc main_arg1)) shapeCasts_S1x1024x64_S1024x64 := by
  dsimp only [Gen.V, Gen.hostOps0]; after_results; rfl

/-- The bias as the region finds it: the host's reshape of the argument to one row. -/
theorem V_bias (c : Dev nD) : (V m c main_call0_v1 : S1x64.Idx → EReal)
    = shapeCast S1x64 (m ((c : Thread nD τ).loc main_arg3)) shapeCasts_S64_S1x64 := by
  dsimp only [Gen.V, Gen.hostOps0]; after_results; rfl

/-- THE ARRAY after the run: `rowwise` of the arguments (the bank and the bias through their reshapes). -/
theorem final (c : Dev nD) : (dats m 0 c).arrAt 4 cfg0.N
    = rowwise (m ((c : Thread nD τ).loc main_arg0))
        (shapeCast S1024x64 (m ((c : Thread nD τ).loc main_arg1)) shapeCasts_S1x1024x64_S1024x64)
        (m ((c : Thread nD τ).loc main_arg2))
        (shapeCast S1x64 (m ((c : Thread nD τ).loc main_arg3)) shapeCasts_S64_S1x64) := by
  rw [(dats m 0 c).arrAt_eq_of_cover 4 _ (fun t _ => flushed_eq m c t) cover, V_main_arg0, V_main_arg2, V_bank, V_bias]

/-- The kernel's run, re-posted: the result array at `rowwise` of the arguments, the arguments unchanged. -/
theorem run : θ_run defs (onTc (τ := τ) (main (F := Ideal))) ⟨m, fun _ => 0, ρ⟩ fun r => ∀ c : Dev nD,
      r.2.mem ((c : Thread nD τ).loc main_v0) = rowwise (m ((c : Thread nD τ).loc main_arg0))
        (shapeCast S1024x64 (m ((c : Thread nD τ).loc main_arg1)) shapeCasts_S1x1024x64_S1024x64)
        (m ((c : Thread nD τ).loc main_arg2))
        (shapeCast S1x64 (m ((c : Thread nD τ).loc main_arg3)) shapeCasts_S64_S1x64)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Consts.lean ====
/-
  The float constants the two programs spell, as the extended reals their words denote: the scale 0.125 is the real
  1/8 exactly (a power of two), 8.0 the real 8, 1.0 the real 1, the word of -∞ the bottom element, and the word of +∞
  (against which the precondition compares) the top one. Stated once here, so that no other module opens the decoding.
-/
import Idealize.ShloMosaic.PureOps.Ideal
import Idealize.ShloMosaic.PureOps.Ideal.Laws

noncomputable section

namespace Cert.MemoryRead.Consts

open Idealize.ShloMosaic

/-- `0.125` denotes the real number 1/8. -/
theorem ofBits_eighth : Ideal.ofBits .f32 0x3E000000#32 = (((1 / 8 : ℝ) : ℝ) : EReal) := by
  simp [Ideal.ofBits, Ideal.ieee, -EReal.coe_mul]; norm_num

/-- `8.0` denotes the real number 8. -/
theorem ofBits_eight : Ideal.ofBits .f32 0x41000000#32 = ((8 : ℝ) : EReal) := by
  simp [Ideal.ofBits, Ideal.ieee, -EReal.coe_mul]; norm_num

/-- `1.0` denotes 1. -/
theorem ofBits_one : Ideal.ofBits .f32 0x3F800000#32 = 1 := by
  simp [Ideal.ofBits, Ideal.ieee, -EReal.coe_mul]; norm_num

/-- The word of -∞ denotes the bottom element. -/
theorem ofBits_negInf : Ideal.ofBits .f32 0xFF800000#32 = ⊥ := by
  simp [Ideal.ofBits, Ideal.ieee]

/-- The word of +∞ denotes the top element. -/
theorem ofBits_posInf : Ideal.ofBits .f32 0x7F800000#32 = ⊤ := by
  simp [Ideal.ofBits, Ideal.ieee]

end Cert.MemoryRead.Consts

end
-- ==== Proof.Finite.lean ====
/-
  From the precondition to real numbers. The precondition is the conjunction of four tests, one per argument, each
  "every entry's absolute value is below +∞". On the extended reals |x| = max x (-x) is below the top element exactly
  when x is neither infinity, that is, when x is a real number. So under the precondition each argument array is a
  real array read into the extended reals.
-/
import proofs.«134530_g28106265985550_cont_9to1_1613_17_alg».proof.Pre_finite_inputs
import proofs.«134530_g28106265985550_cont_9to1_1613_17_alg».proof.Proof.Gen.Pre_finite_inputs
import proofs.«134530_g28106265985550_cont_9to1_1613_17_alg».proof.Proof.Consts
import Idealize.ShloMosaic.Lib.ReduceAll
import Idealize.ShloMosaic.Lib.ValueIdx

noncomputable section

namespace Cert.MemoryRead.Finite

open Idealize.ShloMosaic Cert.Pre_finite_inputs

instance : Subsingleton Cert.Pre_finite_inputs.S_.Idx := ⟨fun a b => funext fun d => d.elim0⟩

/-- An extended real whose absolute value compares below +∞ is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (Ideal.ofBits .f32 0x7F800000#32) = 1#1 := h
  rw [Consts.ofBits_posInf] at h'
  revert h'
  induction x using EReal.rec with
  | bot => intro h'; simp [Ideal.cmp] at h'
  | top => intro h'; simp [Ideal.cmp] at h'
  | coe r => intro _; exact ⟨r, rfl⟩

/-- Under the precondition every entry of every argument is a real number. -/
theorem reals_of_pre (a0 : FVec Ideal S4096x64 .f32) (a1 : FVec Ideal S1x1024x64 .f32) (a2 : FVec Ideal S64x64 .f32)
    (a3 : FVec Ideal S64 .f32) (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.mp (show IntOp.andi _ _ = 1#1 from h0)
  obtain ⟨h01, h2⟩ := IntOp.andi_eq_one.mp (show IntOp.andi _ _ = 1#1 from h012)
  obtain ⟨h0', h1⟩ := IntOp.andi_eq_one.mp (show IntOp.andi _ _ = 1#1 from h01)
  exact ⟨fun i => real_of_abs_lt_top (a0 i) (Host.reduce_andi_all _ _ _ _ _ h0' i),
    fun i => real_of_abs_lt_top (a1 i) (Host.reduce_andi_all _ _ _ _ _ h1 i),
    fun i => real_of_abs_lt_top (a2 i) (Host.reduce_andi_all _ _ _ _ _ h2 i),
    fun i => real_of_abs_lt_top (a3 i) (Host.reduce_andi_all _ _ _ _ _ h3 i)⟩

end Cert.MemoryRead.Finite

end
-- ==== Proof.RefRow.lean ====
/-
  What the reference computes, read at one entry. For the query `x0` (4096 × 64), the memory `x1` (1 × 1024 × 64),
  the weights `x2` (64 × 64) and the bias `x3` (64), entry (p, d) of the result is

      ∑ n, (exp (s p n - μ p) / (0 + ∑ n', exp (s p n' - μ p))) · x1 0 n d,   s p n = (∑ k, ((∑ j, x0 p j · x2 k j) + x3 k) · x1 0 n k) / 8,

  the formula `MemoryRead.refOut` of row p, with the shift μ p the stage the program itself computes (the row's
  running maximum from -∞, once more against -∞). Each stage is read through the generated one-operation lemmas; what is
  written here is which entry of which operand each transposition, reshape and broadcast reads. Nothing here depends
  on the values being finite.
-/
import proofs.«134530_g28106265985550_cont_9to1_1613_17_alg».proof.Proof.Gen.ReferenceIdeal.Read
import proofs.«134530_g28106265985550_cont_9to1_1613_17_alg».proof.Proof.ReadAlgebra
import Idealize.ShloMosaic.Lib.ValueIdx

noncomputable section

open scoped BigOperators

namespace Cert.ReferenceIdeal.Row

open Cert.ReferenceIdeal Cert.ReferenceIdeal.Gen Cert.ReferenceIdeal.Read Idealize.ShloMosaic Idealize.ShloMosaic.ValueIdx Cert.MemoryRead

/-! ## Which entry each layout operation and each product reads -/

theorem idx0 (j k : Fin 64) : idx_main_v0 (ix2 j k) = ix2 k j :=
  funext fun a => Fin.ext (by
    match a with
    | ⟨0, _⟩ => rfl
    | ⟨1, _⟩ => rfl)
theorem lidx1 (p : Fin 4096) (k j : Fin 64) : lidx_main_v1 (ix2 p k) j = ix2 p j :=
  funext fun a => Fin.ext (by
    match a with
    | ⟨0, _⟩ => rfl
    | ⟨1, _⟩ => rfl)
theorem ridx1 (p : Fin 4096) (k j : Fin 64) : ridx_main_v1 (ix2 p k) j = ix2 j k :=
  funext fun a => Fin.ext (by
    match a with
    | ⟨0, _⟩ => rfl
    | ⟨1, _⟩ => rfl)
theorem idx2 (u : Fin 1) (k : Fin 64) : idx_main_v2 (ix2 u k) = ix1 k :=
  funext fun a => Fin.ext (by
    match a with
    | ⟨0, _⟩ => rfl)
theorem idx3 (p : Fin 4096) (k : Fin 64) : idx_main_v3 (ix2 p k) = ix2 (0 : Fin 1) k :=
  funext fun a => Fin.ext (by
    match a with
    | ⟨0, _⟩ => rfl
    | ⟨1, _⟩ => rfl)
theorem idx5 (n : Fin 1024) (k : Fin 64) : idx_main_v5 (ix2 n k) = ix3 (0 : Fin 1) n k :=
  funext fun a => Fin.ext (by
    match a with
    | ⟨0, _⟩ => rfl
    | ⟨1, _⟩ => show (n.val * 64 + k.val) / 64 % 1024 = n.val; have := n.isLt; have := k.isLt; omega
    | ⟨2, _⟩ => show (n.val * 64 + k.val) % 64 = k.val; have := k.isLt; omega)
theorem idx6 (k : Fin 64) (n : Fin 1024) : idx_main_v6 (ix2 k n) = ix2 n k :=
  funext fun a => Fin.ext (by
    match a with
    | ⟨0, _⟩ => rfl
    | ⟨1, _⟩ => rfl)
theorem lidx7 (p : Fin 4096) (n : Fin 1024) (k : Fin 64) : lidx_main_v7 (ix2 p n) k = ix2 p k :=
  funext fun a => Fin.ext (by
    match a with
    | ⟨0, _⟩ => rfl
    | ⟨1, _⟩ => rfl)
theorem ridx7 (p : Fin 4096) (n : Fin 1024) (k : Fin 64) : ridx_main_v7 (ix2 p n) k = ix2 k n :=
  funext fun a => Fin.ext (by
    match a with
    | ⟨0, _⟩ => rfl
    | ⟨1, _⟩ => rfl)
theorem idx13 (p : Fin 4096) (u : Fin 1) : idx_main_v13 (ix2 p u) = ix1 p :=
  funext fun a => Fin.ext (by
    match a with
    | ⟨0, _⟩ => rfl)
theorem idx14 (p : Fin 4096) (n : Fin 1024) : idx_main_v14 (ix2 p n) = ix2 p (0 : Fin 1) :=
  funext fun a => Fin.ext (by
    match a with
    | ⟨0, _⟩ => rfl
    | ⟨1, _⟩ => rfl)
theorem idx17 (p : Fin 4096) (n : Fin 1024) : idx_main_v17 (ix1 p) n = ix2 p n :=
  funext fun a => Fin.ext (by
    match a with
    | ⟨0, _⟩ => rfl
    | ⟨1, _⟩ => rfl)
theorem idx18 (p : Fin 4096) (u : Fin 1) : idx_main_v18 (ix2 p u) = ix1 p :=
  funext fun a => Fin.ext (by
    match a with
    | ⟨0, _⟩ => rfl)
theorem idx19 (p : Fin 4096) (n : Fin 1024) : idx_main_v19 (ix2 p n) = ix2 p (0 : Fin 1) :=
  funext fun a => Fin.ext (by
    match a with
    | ⟨0, _⟩ => rfl
    | ⟨1, _⟩ => rfl)
theorem lidx21 (p : Fin 4096) (d : Fin 64) (n : Fin 1024) : lidx_main_v21 (ix2 p d) n = ix2 p n :=
  funext fun a => Fin.ext (by
    match a with
    | ⟨0, _⟩ => rfl
    | ⟨1, _⟩ => rfl)
theorem ridx21 (p : Fin 4096) (d : Fin 64) (n : Fin 1024) : ridx_main_v21 (ix2 p d) n = ix2 n d :=
  funext fun a => Fin.ext (by
    match a with
    | ⟨0, _⟩ => rfl
    | ⟨1, _⟩ => rfl)

/-! ## The stages at an entry -/

variable (x0 : (⟨S4096x64, .f32⟩ : BufTy).Contents (Elt Ideal)) (x1 : (⟨S1x1024x64, .f32⟩ : BufTy).Contents (Elt Ideal)) (x2 : (⟨S64x64, .f32⟩ : BufTy).Contents (Elt Ideal)) (x3 : (⟨S64, .f32⟩ : BufTy).Contents (Elt Ideal))

/-- The transposed weights. -/
theorem v0_at (j k : Fin 64) : val_main_v0 (F := Ideal) x2 (ix2 j k) = x2 (ix2 k j) := by
  rw [val_main_v0_apply, idx0]

/-- The projection: query row p against weight row k. -/
theorem v1_at (p : Fin 4096) (k : Fin 64) :
    val_main_v1 (F := Ideal) x0 x2 (ix2 p k) = ∑ j : Fin 64, x0 (ix2 p j) * x2 (ix2 k j) := by
  rw [val_main_v1_apply]
  refine Finset.sum_congr rfl fun j _ => ?_
  rw [lidx1, ridx1, v0_at]

/-- The bias, broadcast down the rows. -/
theorem v3_at (p : Fin 4096) (k : Fin 64) : val_main_v3 (F := Ideal) x3 (ix2 p k) = x3 (ix1 k) := by
  rw [val_main_v3_apply, idx3, val_main_v2_apply, idx2]

/-- The projected query with its bias. -/
theorem v4_at (p : Fin 4096) (k : Fin 64) :
    val_main_v4 (F := Ideal) x0 x2 x3 (ix2 p k) = (∑ j : Fin 64, x0 (ix2 p j) * x2 (ix2 k j)) + x3 (ix1 k) := by
  rw [val_main_v4_apply, v1_at, v3_at]
  rfl

/-- The memory bank without its leading unit axis. -/
theorem v5_at (n : Fin 1024) (k : Fin 64) : val_main_v5 (F := Ideal) x1 (ix2 n k) = x1 (ix3 (0 : Fin 1) n k) := by
  rw [val_main_v5_apply, idx5]

/-- … and transposed. -/
theorem v6_at (k : Fin 64) (n : Fin 1024) : val_main_v6 (F := Ideal) x1 (ix2 k n) = x1 (ix3 (0 : Fin 1) n k) := by
  rw [val_main_v6_apply, idx6, v5_at]

/-- The unscaled score of memory row n for query row p. -/
theorem v7_at (p : Fin 4096) (n : Fin 1024) :
    val_main_v7 (F := Ideal) x0 x1 x2 x3 (ix2 p n)
      = ∑ k : Fin 64, ((∑ j : Fin 64, x0 (ix2 p j) * x2 (ix2 k j)) + x3 (ix1 k)) * x1 (ix3 (0 : Fin 1) n k) := by
  rw [val_main_v7_apply]
  refine Finset.sum_congr rfl fun k _ => ?_
  rw [lidx7, ridx7, v4_at, v6_at]

/-- The score: the reference's formula of row p. -/
theorem v9_at (p : Fin 4096) (n : Fin 1024) :
    val_main_v9 (F := Ideal) x0 x1 x2 x3 (ix2 p n)
      = refScore (Ideal.ofBits .f32 0x41000000#32) (fun j : Fin 64 => x0 (ix2 p j)) (fun k j : Fin 64 => x2 (ix2 k j))
          (fun k : Fin 64 => x3 (ix1 k)) (fun (n : Fin 1024) (k : Fin 64) => x1 (ix3 (0 : Fin 1) n k)) n := by
  rw [val_main_v9_apply, v7_at, val_main_v8_apply, val_main_cst_apply]
  rfl

/-- The shift, broadcast along the row. -/
theorem v14_at (p : Fin 4096) (n : Fin 1024) :
    val_main_v14 (F := Ideal) x0 x1 x2 x3 (ix2 p n) = val_main_v12 (F := Ideal) x0 x1 x2 x3 (ix1 p) := by
  rw [val_main_v14_apply, idx14, val_main_v13_apply, idx13]

/-- The shifted score's exponential. -/
theorem v16_at (p : Fin 4096) (n : Fin 1024) :
    val_main_v16 (F := Ideal) x0 x1 x2 x3 (ix2 p n)
      = Ideal.exp (refScore (Ideal.ofBits .f32 0x41000000#32) (fun j : Fin 64 => x0 (ix2 p j)) (fun k j : Fin 64 => x2 (ix2 k j))
          (fun k : Fin 64 => x3 (ix1 k)) (fun (n : Fin 1024) (k : Fin 64) => x1 (ix3 (0 : Fin 1) n k)) n
          - val_main_v12 (F := Ideal) x0 x1 x2 x3 (ix1 p)) := by
  rw [val_main_v16_apply, val_main_v15_apply, v9_at, v14_at]
  rfl

/-- The row's normaliser: the sum of those exponentials, from the zero word. -/
theorem v17_at (p : Fin 4096) :
    val_main_v17 (F := Ideal) x0 x1 x2 x3 (ix1 p)
      = Ideal.ofBits .f32 0x00000000#32 + ∑ n : Fin 1024,
          Ideal.exp (refScore (Ideal.ofBits .f32 0x41000000#32) (fun j : Fin 64 => x0 (ix2 p j)) (fun k j : Fin 64 => x2 (ix2 k j))
            (fun k : Fin 64 => x3 (ix1 k)) (fun (n : Fin 1024) (k : Fin 64) => x1 (ix3 (0 : Fin 1) n k)) n
            - val_main_v12 (F := Ideal) x0 x1 x2 x3 (ix1 p)) := by
  rw [val_main_v17_apply, val_main_cst_2_apply]
  refine congrArg (_ + ·) (Finset.sum_congr rfl fun n _ => ?_)
  rw [idx17, v16_at]

/-- The normaliser, broadcast along the row. -/
theorem v19_at (p : Fin 4096) (n : Fin 1024) :
    val_main_v19 (F := Ideal) x0 x1 x2 x3 (ix2 p n) = val_main_v17 (F := Ideal) x0 x1 x2 x3 (ix1 p) := by
  rw [val_main_v19_apply, idx19, val_main_v18_apply, idx18]

/-- THE RESULT at entry (p, d): the reference's formula of row p, shifted by the stage the program computes. -/
theorem result_at (p : Fin 4096) (d : Fin 64) :
    val_main_v21 (F := Ideal) x0 x1 x2 x3 (ix2 p d)
      = refOut (Ideal.ofBits .f32 0x41000000#32) (Ideal.ofBits .f32 0x00000000#32) (val_main_v12 (F := Ideal) x0 x1 x2 x3 (ix1 p))
          (fun j : Fin 64 => x0 (ix2 p j)) (fun k j : Fin 64 => x2 (ix2 k j)) (fun k : Fin 64 => x3 (ix1 k))
          (fun (n : Fin 1024) (k : Fin 64) => x1 (ix3 (0 : Fin 1) n k)) d := by
  rw [val_main_v21_apply]
  unfold refOut
  refine Finset.sum_congr rfl fun n _ => ?_
  rw [lidx21, ridx21, v5_at, val_main_v20_apply, v16_at, v19_at, v17_at]
  rfl

end Cert.ReferenceIdeal.Row

end
-- ==== Proof.Bridge.lean ====
/-
  The bridge: under real inputs the kernel's whole-array function is the reference's result.

  Entry (p, d) of the kernel's array is the kernel's formula of query row p over the memory bank and the bias as the
  kernel sees them (the host's two reshapes of the arguments: entry (n, k) of the bank is entry (0, n, k) of the
  argument, entry (0, k) of the bias row is entry k of the argument). Entry (p, d) of the reference's result is the
  reference's formula of the same row, shifted by the row's running maximum. Over real inputs that maximum — taken
  from -∞ over 1024 real scores — is a real number, and for a real shift the two formulas are one number
  (`MemoryRead.kerOut_eq_refOut`). The constants meet there as 1/8 against 8, 1, and 0.
-/
import proofs.«134530_g28106265985550_cont_9to1_1613_17_alg».proof.Proof.KernelWhole
import proofs.«134530_g28106265985550_cont_9to1_1613_17_alg».proof.Proof.RefRow
import proofs.«134530_g28106265985550_cont_9to1_1613_17_alg».proof.Proof.Consts
import Idealize.ShloMosaic.Lib.ValueLayout

noncomputable section

open scoped BigOperators

namespace Cert.MemoryRead.Bridge

open Idealize.ShloMosaic Idealize.ShloMosaic.ValueIdx Cert.MemoryRead
open Cert.ReferenceIdeal Cert.ReferenceIdeal.Gen Cert.ReferenceIdeal.Read

variable (r0 : S4096x64.Idx → ℝ) (r1 : S1x1024x64.Idx → ℝ) (r2 : S64x64.Idx → ℝ) (r3 : S64.Idx → ℝ)

/-- Over real inputs the score of memory row n for query row p is a real number: the common score. -/
theorem score_real (p : Fin 4096) (n : Fin 1024) :
    val_main_v9 (F := Ideal) (fun i => (r0 i : EReal)) (fun i => (r1 i : EReal)) (fun i => (r2 i : EReal)) (fun i => (r3 i : EReal)) (ix2 p n)
      = ((score (fun j : Fin 64 => r0 (ix2 p j)) (fun k j : Fin 64 => r2 (ix2 k j)) (fun k : Fin 64 => r3 (ix1 k))
          (fun (n : Fin 1024) (k : Fin 64) => r1 (ix3 (0 : Fin 1) n k)) n : ℝ) : EReal) := by
  rw [Row.v9_at, Consts.ofBits_eight]
  exact refScore_real _ _ _ _ n

/-- Over real inputs the shift the reference subtracts in row p — the row's running maximum from -∞, once more against
    -∞ — is a real number. -/
theorem shift_real (p : Fin 4096) :
    ∃ μ : ℝ, val_main_v12 (F := Ideal) (fun i => (r0 i : EReal)) (fun i => (r1 i : EReal)) (fun i => (r2 i : EReal))
      (fun i => (r3 i : EReal)) (ix1 p) = (μ : EReal) := by
  have hR : S4096x1024.Reduces [1] S4096 := by decide
  have hlift : ∀ n : Fin 1024, hR.lift (ix1 p) n = ix2 p n := fun n => funext fun a => Fin.ext (by
    match a with
    | ⟨0, _⟩ => rfl
    | ⟨1, _⟩ => rfl)
  obtain ⟨μ, hμ⟩ := fold_max_real (Finset.univ : Finset (Fin 1024)) ⟨⟨0, by decide⟩, Finset.mem_univ _⟩
    (score (fun j : Fin 64 => r0 (ix2 p j)) (fun k j : Fin 64 => r2 (ix2 k j)) (fun k : Fin 64 => r3 (ix1 k))
      (fun (n : Fin 1024) (k : Fin 64) => r1 (ix3 (0 : Fin 1) n k)))
  refine ⟨μ, ?_⟩
  rw [val_main_v12_apply, val_main_v11_apply, val_main_cst_1_apply]
  unfold val_main_v10
  rw [Host.reduce_eq_fold_single FloatOps.maximumf _ _ reducesTo_S4096x1024_S4096_d1 hR h_S_ (ix1 p), val_main_cst_0_apply]
  have hf : (val_main_v9 (F := Ideal) (fun i => (r0 i : EReal)) (fun i => (r1 i : EReal)) (fun i => (r2 i : EReal))
      (fun i => (r3 i : EReal)) ∘ hR.lift (ix1 p))
      = fun n : Fin 1024 => ((score (fun j : Fin 64 => r0 (ix2 p j)) (fun k j : Fin 64 => r2 (ix2 k j)) (fun k : Fin 64 => r3 (ix1 k))
          (fun (n : Fin 1024) (k : Fin 64) => r1 (ix3 (0 : Fin 1) n k)) n : ℝ) : EReal) := funext fun n =>
    (congrArg (val_main_v9 (F := Ideal) (fun i => (r0 i : EReal)) (fun i => (r1 i : EReal)) (fun i => (r2 i : EReal))
      (fun i => (r3 i : EReal))) (hlift n)).trans (score_real r0 r1 r2 r3 p n)
  rw [hf]
  show max (Ideal.ofBits .f32 0xFF800000#32) ((Finset.univ : Finset (Fin 1024)).fold max (Ideal.ofBits .f32 0xFF800000#32) _) = _
  rw [Consts.ofBits_negInf, max_bot_left]
  exact hμ

/-- THE BRIDGE: over real inputs, the kernel's whole-array function of the arguments (the bank and the bias through the
    host's reshapes) is the reference's result. -/
theorem rowwise_eq_reference (hc1 : S1x1024x64.ShapeCasts S1024x64) (hc3 : S64.ShapeCasts S1x64) :
    Cert.KernelIdeal.Whole.rowwise (fun i => (r0 i : EReal)) (shapeCast S1024x64 (fun i => (r1 i : EReal)) hc1)
        (fun i => (r2 i : EReal)) (shapeCast S1x64 (fun i => (r3 i : EReal)) hc3)
      = val_main_v21 (F := Ideal) (fun i => (r0 i : EReal)) (fun i => (r1 i : EReal)) (fun i => (r2 i : EReal)) (fun i => (r3 i : EReal)) := by
  funext i
  obtain ⟨p, d, rfl⟩ : ∃ (p : Fin 4096) (d : Fin 64), i = ix2 p d := ⟨i 0, i 1, eq_ix2 i⟩
  obtain ⟨μ, hμ⟩ := shift_real r0 r1 r2 r3 p
  rw [Cert.KernelIdeal.Whole.rowwise_ix2, Row.result_at, hμ]
  simp only [shapeCast_1ab_ab_apply, shapeCast_a_1a_apply]
  exact kerOut_eq_refOut (fun j : Fin 64 => r0 (ix2 p j)) (fun k j : Fin 64 => r2 (ix2 k j)) (fun k : Fin 64 => r3 (ix1 k))
    (fun (n : Fin 1024) (k : Fin 64) => r1 (ix3 (0 : Fin 1) n k)) _ _ _ _ Consts.ofBits_eighth Consts.ofBits_one Consts.ofBits_eight
    Ideal.ofBits_zero_f32 μ d

/-- The same for extended-real arrays every entry of which is a real number. -/
theorem rowwise_eq_reference_of_real (x0 : S4096x64.Idx → EReal) (x1 : S1x1024x64.Idx → EReal) (x2 : S64x64.Idx → EReal)
    (x3 : S64.Idx → EReal) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal))
    (hc1 : S1x1024x64.ShapeCasts S1024x64) (hc3 : S64.ShapeCasts S1x64) :
    Cert.KernelIdeal.Whole.rowwise x0 (shapeCast S1024x64 x1 hc1) x2 (shapeCast S1x64 x3 hc3)
      = val_main_v21 (F := Ideal) x0 x1 x2 x3 := by
  choose r0 hr0 using h0
  choose r1 hr1 using h1
  choose r2 hr2 using h2
  choose r3 hr3 using h3
  obtain rfl : x0 = fun i => (r0 i : EReal) := funext hr0
  obtain rfl : x1 = fun i => (r1 i : EReal) := funext hr1
  obtain rfl : x2 = fun i => (r2 i : EReal) := funext hr2
  obtain rfl : x3 = fun i => (r3 i : EReal) := funext hr3
  exact rowwise_eq_reference r0 r1 r2 r3 hc1 hc3

end Cert.MemoryRead.Bridge

end
-- ==== Proof.lean ====
/-
  The certificate of a fused attention read against its plain reference, over the extended reals.

  Both programs take a query (4096 × 64), a memory bank (1 × 1024 × 64), projection weights (64 × 64) and a bias (64),
  and return, for every query row p, the memory rows averaged with softmax weights of the scores
      s p n = (∑ k, ((∑ j, query p j · W k j) + bias k) · bank n k) / 8.
  The kernel multiplies the scale 1/8 into the weights and the bias before the two products, takes the exponentials of
  the scores without subtracting the row's maximum, and obtains the normaliser as a 65th output column of the last
  product (the bank extended by a column of ones), dividing the other 64 columns by it. The reference divides the finished
  scores by 8, subtracts the row's maximum, normalises the weights first and multiplies by the bank last.

  For FINITE inputs (the precondition) every intermediate value is a real number and the two results are one real number:
  the factor 1/8 moves across two finite sums; exp (s - μ) = exp s / exp μ, so the positive factor 1 / exp μ leaves
  numerator and denominator alike; and normalising before the last product is normalising after it. Finiteness is really
  used: none of the three steps holds at the infinities.

  The modules: ReadAlgebra (that law, on the extended reals, no program in sight), Consts (the float words read),
  KernelRow (what the kernel's body stores, at one entry), KernelWhole (the kernel's output array after the run as one
  function of the arguments), RefRow (the reference's result at one entry), Finite (the precondition gives real
  numbers), Bridge (the two whole-array functions are equal under real inputs). The three frames are the generated
  frame certificates (the reference's is its generated run with the result dropped); the idealisation rewrote no
  operation, so there is nothing to preserve.
-/
import proofs.«134530_g28106265985550_cont_9to1_1613_17_alg».proof.Defs
import proofs.«134530_g28106265985550_cont_9to1_1613_17_alg».proof.Proof.Gen.Kernel
import proofs.«134530_g28106265985550_cont_9to1_1613_17_alg».proof.Proof.Gen.Kernel.Frame
import proofs.«134530_g28106265985550_cont_9to1_1613_17_alg».proof.Proof.Gen.KernelIdeal
import proofs.«134530_g28106265985550_cont_9to1_1613_17_alg».proof.Proof.Gen.KernelIdeal.Frame
import proofs.«134530_g28106265985550_cont_9to1_1613_17_alg».proof.Proof.Gen.KernelIdeal.Value
import proofs.«134530_g28106265985550_cont_9to1_1613_17_alg».proof.Proof.Gen.ReferenceIdeal
import proofs.«134530_g28106265985550_cont_9to1_1613_17_alg».proof.Proof.Gen.ReferenceIdeal.Run
import proofs.«134530_g28106265985550_cont_9to1_1613_17_alg».proof.Proof.Gen.ReferenceIdeal.Read
import proofs.«134530_g28106265985550_cont_9to1_1613_17_alg».proof.Proof.Gen.Pre_finite_inputs
import proofs.«134530_g28106265985550_cont_9to1_1613_17_alg».proof.Proof.KernelWhole
import proofs.«134530_g28106265985550_cont_9to1_1613_17_alg».proof.Proof.Finite
import proofs.«134530_g28106265985550_cont_9to1_1613_17_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories that agree on finite arguments both programs end with the same array: the kernel's is the row-wise
    kernel formula of the arguments, the reference's its composed term, and under the precondition the two are equal. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  obtain ⟨f0, f1, f2, f3⟩ := Cert.MemoryRead.Finite.reals_of_pre _ _ _ _ (hpre c)
  exact (Cert.MemoryRead.Bridge.rowwise_eq_reference_of_real _ _ _ _ f0 f1 f2 f3 _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
